-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x64x64 : Shape := ⟨3, ![32, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn {F : FTy → Type} [FloatOps F] (main_arg0 : FVec F S32x256x64x64 .f32) (main_arg1 : FVec F S32x256x64x64 .f32) (main_arg2 : IVec S32x64x64 32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  main_v8
-- ==== Kernel.lean ====
abbrev S32x256x64x64 : Shape := ⟨4, ![32, 256, 64, 64]⟩
abbrev S32x64x64 : Shape := ⟨3, ![32, 64, 64]⟩
abbrev S32x128 : Shape := ⟨2, ![32, 128]⟩
abbrev S8x32x64x64 : Shape := ⟨4, ![8, 32, 64, 64]⟩
abbrev S8x64x64 : Shape := ⟨3, ![8, 64, 64]⟩
abbrev S8x128 : Shape := ⟨2, ![8, 128]⟩
abbrev S8x64 : Shape := ⟨2, ![8, 64]⟩
abbrev S8 : Shape := ⟨1, ![8]⟩
abbrev S8x1 : Shape := ⟨2, ![8, 1]⟩
abbrev S32x1 : Shape := ⟨2, ![32, 1]⟩
abbrev S32 : Shape := ⟨1, ![32]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x64x64, .i32⟩
  | .hbm, ⟨3, _⟩ => ⟨S32x128, .f32⟩
  | .hbm, ⟨4, _⟩ => ⟨S32x128, .f32⟩
  | .hbm, ⟨5, _⟩ => ⟨S32x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S32x1, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8x32x64x64, .f32⟩
  | .local _ .vmem, ⟨1, _⟩ => ⟨S8x32x64x64, .f32⟩
  | .local _ .vmem, ⟨2, _⟩ => ⟨S8x32x64x64, .f32⟩
  | .local _ .vmem, ⟨3, _⟩ => ⟨S8x32x64x64, .f32⟩
  | .local _ .vmem, ⟨4, _⟩ => ⟨S8x64x64, .i32⟩
  | .local _ .vmem, ⟨5, _⟩ => ⟨S8x64x64, .i32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x64x64, .f32⟩
  | .local _ .vmem, ⟨11, _⟩ => ⟨S8x64x64, .f32⟩
  | .local _ .vmem, ⟨12, _⟩ => ⟨S8x64x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_28 : BitVec 32 := 0#32
  let v28 : BitVec 1 := Scalar.cmpi .ne v27 c0_i32_28
  v28

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x32x64x64_S8x32x64x64_0_0_0_0 : ∀ a, (![0, 0, 0, 0] : Fin 4 → Nat) a + S8x32x64x64.size a ≤ S8x32x64x64.size a
  h_S8x32x64x64 : 0 < S8x32x64x64.numel
  reduces_S8x32x64x64_S8x64x64 : S8x32x64x64.Reduces [1] S8x64x64
  natLt_1_32 : 1 < 32
  reduces_S8x64x64_S8x64 : S8x64x64.Reduces [2] S8x64
  reduces_S8x64_S8 : S8x64.Reduces [1] S8
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S32x128_S32x1_0_0 : S32x128.Slices ![0, 0] S32x1
  shapeCasts_S32x1_S32 : S32x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x64x64.size a ≤ S32x256x64x64.size a
  hwx0_0 : ∀ i : grid0.Coords, EltTy.bits .f32 = 32 ∨ (Rect.block (s := S32x256x64x64) S8x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x64x64.size a ≤ S32x256x64x64.size a
  hwx0_1 : ∀ i : grid0.Coords, EltTy.bits .f32 = 32 ∨ (Rect.block (s := S32x256x64x64) S8x32x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S32x64x64.size a
  hwx0_2 : ∀ i : grid0.Coords, EltTy.bits .i32 = 32 ∨ (Rect.block (s := S32x64x64) S8x64x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S32x128.size a
  hwx0_3 : ∀ i : grid0.Coords, EltTy.bits .f32 = 32 ∨ (Rect.block (s := S32x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)

variable [Facts₀]

abbrev win0_0 : Pipeline.Window sig grid0 :=
  Pipeline.Window.ofSpec (Memref.whole main_arg0) S8x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x256x64x64 : Shape := ⟨4, ![32, 256, 64, 64]⟩
abbrev S32x64x64 : Shape := ⟨3, ![32, 64, 64]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x64x64, .i32⟩
  | .hbm, ⟨3, _⟩ => ⟨S32x256x64x64, .f32⟩
  | .hbm, ⟨4, _⟩ => ⟨S_, .f32⟩
  | .hbm, ⟨5, _⟩ => ⟨S32x64x64, .f32⟩
  | .hbm, ⟨6, _⟩ => ⟨S32x256x64x64, .f32⟩
  | .hbm, ⟨7, _⟩ => ⟨S_, .f32⟩
  | .hbm, ⟨8, _⟩ => ⟨S32x64x64, .f32⟩
  | .hbm, ⟨9, _⟩ => ⟨S32x64x64, .f32⟩
  | .hbm, ⟨10, _⟩ => ⟨S32x256x64x64, .f32⟩
  | .hbm, ⟨11, _⟩ => ⟨S_, .f32⟩
  | .hbm, ⟨12, _⟩ => ⟨S32x64x64, .f32⟩
  | .hbm, ⟨13, _⟩ => ⟨S32x64x64, .f32⟩
  | .hbm, ⟨14, _⟩ => ⟨S_, .f32⟩
  | .hbm, ⟨15, _⟩ => ⟨S32x64x64, .f32⟩
  | .hbm, ⟨16, _⟩ => ⟨S32x64x64, .f32⟩
  | .hbm, ⟨17, _⟩ => ⟨S_, .f32⟩
  | .hbm, ⟨18, _⟩ => ⟨S32x64x64, .f32⟩
  | .hbm, ⟨19, _⟩ => ⟨S32x64x64, .f32⟩
  | .hbm, ⟨20, _⟩ => ⟨S32x64x64, .f32⟩
  | .hbm, ⟨21, _⟩ => ⟨S32x64x64, .f32⟩
  | .hbm, ⟨22, _⟩ => ⟨S_, .i32⟩
  | .hbm, ⟨23, _⟩ => ⟨S32x64x64, .i32⟩
  | .hbm, ⟨24, _⟩ => ⟨S32x64x64, .i1⟩
  | .hbm, ⟨25, _⟩ => ⟨S32x64x64, .f32⟩
  | .hbm, ⟨26, _⟩ => ⟨S32x64x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S_S32x64x64 : S_.BroadcastsInDim S32x64x64 (![] : Fin 0 → Fin S32x64x64.rank)
  reducesTo_S32x64x64_S_d0_1_2 : S32x64x64.ReducesTo [0, 1, 2] S_

variable [Facts₀]

class Facts : Prop extends Facts₀ where

variable [Facts]
-- ==== Proof.Pieces.lean ====
/-
  What each control case of the kernel body leaves in the three accumulators and the two output blocks,
  as the body's own payload terms of the blocks it read.

  The body has three cases over the channel-block coordinate: the first channel block (the accumulators
  are reset to zero and then take the block's contribution), a middle block (they take it over what the
  point before left), and the last block (the same, and then the two output blocks are computed from the
  finished accumulators and the mask block). Each accumulator ends as one whole-buffer store; read back,
  that store's payload is a function of the input blocks and of what the accumulator held.
-/
import proofs.«139783_j69913477644540_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CosValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords)
  (arg2 : Memref sig .tc .vmem S8x32x64x64 .f32) (harg2 : arg2.IsWhole)
  (arg3 : Memref sig .tc .vmem S8x32x64x64 .f32) (harg3 : arg3.IsWhole)
  (arg4 : Memref sig .tc .vmem S8x64x64 .i32) (harg4 : arg4.IsWhole)
  (arg5 : Memref sig .tc .vmem S8x128 .f32) (harg5 : arg5.IsWhole)
  (arg6 : Memref sig .tc .vmem S8x128 .f32) (harg6 : arg6.IsWhole)
  (arg7 : Memref sig .tc .vmem S8x64x64 .f32) (harg7 : arg7.IsWhole)
  (arg8 : Memref sig .tc .vmem S8x64x64 .f32) (harg8 : arg8.IsWhole)
  (arg9 : Memref sig .tc .vmem S8x64x64 .f32) (harg9 : arg9.IsWhole)
  (hA0 : cond0_0 i) (hN0 : ¬cond0_0 i) (hN1 : ¬cond0_1 i) (hC1 : cond0_1 i)
  (x0 x1 : Vec F S8x32x64x64 .f32) (x2 : Vec F S8x64x64 .i32) (xs0 xs1 xs2 : Vec F S8x64x64 .f32)

/-! ## First channel block: reset, then accumulate -/

theorem scr0_A :
    sout0_A_0 c i arg2 harg2 arg3 harg3 arg4 harg4 arg5 harg5 arg6 harg6 arg7 harg7 arg8 harg8 arg9 harg9 hA0 hN1 x0 x1 x2 = k0_pay8 x0 x1 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hA0 hN1 x0 x1 x2)]
  unfold kernelRun0_A
  dsimp only
  sl_unfold_words
  rw [View.canon_cons_unit_zero (S := S8x64x64) hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

theorem scr1_A :
    sout0_A_1 c i arg2 harg2 arg3 harg3 arg4 harg4 arg5 harg5 arg6 harg6 arg7 harg7 arg8 harg8 arg9 harg9 hA0 hN1 x0 x1 x2 = k0_pay9 x0 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hA0 hN1 x0 x1 x2)]
  unfold kernelRun0_A
  dsimp only
  sl_unfold_words
  rw [View.canon_cons_unit_zero (S := S8x64x64) hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

theorem scr2_A :
    sout0_A_2 c i arg2 harg2 arg3 harg3 arg4 harg4 arg5 harg5 arg6 harg6 arg7 harg7 arg8 harg8 arg9 harg9 hA0 hN1 x0 x1 x2 = k0_pay1 (k0_pay10 x1 (k0_pay7 (F := F))) := by
  unfold sout0_A_2
  rw [View.read_writes_eq_canon _ _ _ (scover0_A_2 c i arg2 harg2 arg3 harg3 arg4 harg4 arg5 harg5 arg6 harg6 arg7 harg7 arg8 harg8 arg9 harg9 hA0 hN1 x0 x1 x2)]
  unfold kernelRun0_A
  dsimp only
  sl_unfold_words
  rw [View.canon_cons_unit_zero (S := S8x64x64) hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

/-! ## A middle channel block: accumulate over what the point before left -/

theorem scr0_B :
    sout0_B_0 c i arg2 harg2 arg3 harg3 arg4 harg4 arg5 harg5 arg6 harg6 arg7 harg7 arg8 harg8 arg9 harg9 hN0 hN1 x0 x1 x2 xs0 xs1 xs2 = k0_pay8 x0 x1 xs0 := by
  unfold sout0_B_0
  rw [View.read_writes_eq_canon _ _ _ (scover0_B_0 c i arg2 harg2 arg3 harg3 arg4 harg4 arg5 harg5 arg6 harg6 arg7 harg7 arg8 harg8 arg9 harg9 hN0 hN1 x0 x1 x2 xs0 xs1 xs2)]
  unfold kernelRun0_B
  dsimp only
  sl_unfold_words
  rw [View.canon_unit_zero hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

theorem scr1_B :
    sout0_B_1 c i arg2 harg2 arg3 harg3 arg4 harg4 arg5 harg5 arg6 harg6 arg7 harg7 arg8 harg8 arg9 harg9 hN0 hN1 x0 x1 x2 xs0 xs1 xs2 = k0_pay9 x0 xs1 := by
  unfold sout0_B_1
  rw [View.read_writes_eq_canon _ _ _ (scover0_B_1 c i arg2 harg2 arg3 harg3 arg4 harg4 arg5 harg5 arg6 harg6 arg7 harg7 arg8 harg8 arg9 harg9 hN0 hN1 x0 x1 x2 xs0 xs1 xs2)]
  unfold kernelRun0_B
  dsimp only
  sl_unfold_words
  rw [View.canon_unit_zero hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

theorem scr2_B :
    sout0_B_2 c i arg2 harg2 arg3 harg3 arg4 harg4 arg5 harg5 arg6 harg6 arg7 harg7 arg8 harg8 arg9 harg9 hN0 hN1 x0 x1 x2 xs0 xs1 xs2 = k0_pay1 (k0_pay10 x1 xs2) := by
  unfold sout0_B_2
  rw [View.read_writes_eq_canon _ _ _ (scover0_B_2 c i arg2 harg2 arg3 harg3 arg4 harg4 arg5 harg5 arg6 harg6 arg7 harg7 arg8 harg8 arg9 harg9 hN0 hN1 x0 x1 x2 xs0 xs1 xs2)]
  unfold kernelRun0_B
  dsimp only
  sl_unfold_words
  rw [View.canon_unit_zero hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

/-! ## The last channel block: accumulate, then finish -/

theorem scr0_C :
    sout0_C_0 c i arg2 harg2 arg3 harg3 arg4 harg4 arg5 harg5 arg6 harg6 arg7 harg7 arg8 harg8 arg9 harg9 hN0 hC1 x0 x1 x2 xs0 xs1 xs2 = k0_pay8 x0 x1 xs0 := by
  unfold sout0_C_0
  rw [View.read_writes_eq_canon _ _ _ (scover0_C_0 c i arg2 harg2 arg3 harg3 arg4 harg4 arg5 harg5 arg6 harg6 arg7 harg7 arg8 harg8 arg9 harg9 hN0 hC1 x0 x1 x2 xs0 xs1 xs2)]
  unfold kernelRun0_C
  dsimp only
  sl_unfold_words
  rw [View.canon_unit_zero hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

theorem scr1_C :
    sout0_C_1 c i arg2 harg2 arg3 harg3 arg4 harg4 arg5 harg5 arg6 harg6 arg7 harg7 arg8 harg8 arg9 harg9 hN0 hC1 x0 x1 x2 xs0 xs1 xs2 = k0_pay9 x0 xs1 := by
  unfold sout0_C_1
  rw [View.read_writes_eq_canon _ _ _ (scover0_C_1 c i arg2 harg2 arg3 harg3 arg4 harg4 arg5 harg5 arg6 harg6 arg7 harg7 arg8 harg8 arg9 harg9 hN0 hC1 x0 x1 x2 xs0 xs1 xs2)]
  unfold kernelRun0_C
  dsimp only
  sl_unfold_words
  rw [View.canon_unit_zero hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

theorem scr2_C :
    sout0_C_2 c i arg2 harg2 arg3 harg3 arg4 harg4 arg5 harg5 arg6 harg6 arg7 harg7 arg8 harg8 arg9 harg9 hN0 hC1 x0 x1 x2 xs0 xs1 xs2 = k0_pay1 (k0_pay10 x1 xs2) := by
  unfold sout0_C_2
  rw [View.read_writes_eq_canon _ _ _ (scover0_C_2 c i arg2 harg2 arg3 harg3 arg4 harg4 arg5 harg5 arg6 harg6 arg7 harg7 arg8 harg8 arg9 harg9 hN0 hC1 x0 x1 x2 xs0 xs1 xs2)]
  unfold kernelRun0_C
  dsimp only
  sl_unfold_words
  rw [View.canon_unit_zero hz3]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

/-- The first output block: computed from the three finished accumulators and the mask block. -/
theorem out3_C :
    out0_C_3 c i arg2 harg2 arg3 harg3 arg4 harg4 arg5 harg5 arg6 harg6 arg7 harg7 arg8 harg8 arg9 harg9 hN0 hC1 x0 x1 x2 xs0 xs1 xs2
      = k0_pay3 (k0_pay9 x0 xs1) (k0_pay1 (k0_pay10 x1 xs2)) (k0_pay8 x0 x1 xs0) x2 := by
  unfold out0_C_3
  rw [View.read_writes_eq_canon _ _ _ (cover0_C_3 c i arg2 harg2 arg3 harg3 arg4 harg4 arg5 harg5 arg6 harg6 arg7 harg7 arg8 harg8 arg9 harg9 hN0 hC1 x0 x1 x2 xs0 xs1 xs2)]
  unfold kernelRun0_C
  dsimp only
  sl_unfold_words
  rw [View.canon_unit_zero hz2]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

/-- The second output block: computed from the mask block alone. -/
theorem out4_C :
    out0_C_4 c i arg2 harg2 arg3 harg3 arg4 harg4 arg5 harg5 arg6 harg6 arg7 harg7 arg8 harg8 arg9 harg9 hN0 hC1 x0 x1 x2 xs0 xs1 xs2 = k0_pay4 x2 := by
  unfold out0_C_4
  rw [View.read_writes_eq_canon _ _ _ (cover0_C_4 c i arg2 harg2 arg3 harg3 arg4 harg4 arg5 harg5 arg6 harg6 arg7 harg7 arg8 harg8 arg9 harg9 hN0 hC1 x0 x1 x2 xs0 xs1 xs2)]
  unfold kernelRun0_C
  dsimp only
  sl_unfold_words
  rw [View.canon_unit_zero hz2]
  simp only [View.readAt_eq_ld, harg2.read_unread, harg3.read_unread, harg4.read_unread, harg7.read_unread, harg8.read_unread, harg9.read_unread,
    View.readCov_unit_zero (S := S8x64x64) _ hz3, View.ld_unit_zero (S := S8x32x64x64) hz4, View.ld_unit_zero (S := S8x64x64) hz3]

end Cert.KernelIdeal.CosValue

end
-- ==== Proof.CosSpec.lean ====
/-
  The specification of the masked mean cosine similarity, index by index over the extended reals.

  For arrays `u v : [32, 256, 64, 64]` and an integer mask `k : [32, 64, 64]`:
    chanDot x y b h w = ∑ c, x[b, c, h, w] * y[b, c, h, w]                      (the channel dot product)
    cosAt u v b h w   = chanDot u v / (max (√(chanDot u u)) ε * max (√(chanDot v v)) ε)
    maskAt k b h w    = 1 if k[b, h, w] ≠ 0, else 0
    result            = (0 + ∑ b, ∑ h, ∑ w, cosAt * maskAt) / (0 + ∑ b, ∑ h, ∑ w, maskAt)
  and the two re-indexing laws the two programs differ by: a sum over 256 channels is the sum over 8
  channel blocks of the sums over the 32 channels of each block; a one-bit word read signed after a
  zero extension is the word read unsigned.
-/
import Idealize.ShloMosaic.Lib.ValueIdx
import Idealize.ShloMosaic.PureOps.Ideal.Laws

noncomputable section

namespace Cert.CosSim

open Idealize.ShloMosaic Idealize.ShloMosaic.ValueIdx

abbrev T4 : Shape := ⟨4, ![32, 256, 64, 64]⟩
abbrev T3 : Shape := ⟨3, ![32, 64, 64]⟩

/-- The dot product along the channel axis at batch `b`, position `(h, w)`. -/
def chanDot (x y : T4.Idx → EReal) (b : Fin 32) (h w : Fin 64) : EReal :=
  ∑ c : Fin 256, x (ix4 b c h w) * y (ix4 b c h w)

/-- The clamp of the two norms: the f32 word both programs carry, never evaluated. -/
def eps : EReal := Ideal.ofBits .f32 0x322BCC77#32

/-- The cosine similarity along the channel axis, each norm clamped below by `eps`. -/
def cosAt (u v : T4.Idx → EReal) (b : Fin 32) (h w : Fin 64) : EReal :=
  Ideal.div (chanDot u v b h w)
    (max (Ideal.sqrt (chanDot u u b h w)) eps * max (Ideal.sqrt (chanDot v v b h w)) eps)

/-- The mask as a number: one where the integer mask is not zero, zero elsewhere. -/
def maskAt (k : T3.Idx → BitVec 32) (b : Fin 32) (h w : Fin 64) : EReal :=
  (((IntOp.cmpi .ne (k (ix3 b h w)) 0#32).toNat : ℝ) : EReal)

/-- One batch's masked sum of similarities over its 64 × 64 positions. -/
def numRow (u v : T4.Idx → EReal) (k : T3.Idx → BitVec 32) (b : Fin 32) : EReal :=
  ∑ h : Fin 64, ∑ w : Fin 64, cosAt u v b h w * maskAt k b h w

/-- One batch's count of unmasked positions. -/
def denRow (k : T3.Idx → BitVec 32) (b : Fin 32) : EReal :=
  ∑ h : Fin 64, ∑ w : Fin 64, maskAt k b h w

/-- The masked mean: the batches' sums, each from a zero initial value, divided. -/
def result (u v : T4.Idx → EReal) (k : T3.Idx → BitVec 32) : EReal :=
  Ideal.div (0 + ∑ b : Fin 32, numRow u v k b) (0 + ∑ b : Fin 32, denRow k b)

/-- 256 channels are 8 blocks of 32: channel `32 * j + i` is channel `i` of block `j`. -/
theorem sum_chan_blocks {M : Type*} [AddCommMonoid M] (f : Fin 256 → M) :
    ∑ c : Fin 256, f c
      = ∑ j : Fin 8, ∑ i : Fin 32, f ⟨32 * j.val + i.val, by have := j.isLt; have := i.isLt; omega⟩ := by
  rw [← (finProdFinEquiv : Fin 8 × Fin 32 ≃ Fin (8 * 32)).sum_comp f, Fintype.sum_prod_type]
  refine Finset.sum_congr rfl fun j _ => Finset.sum_congr rfl fun i _ => congrArg f (Fin.ext ?_)
  show i.val + 32 * j.val = 32 * j.val + i.val
  omega

/-- A one-bit word, zero-extended to 32 bits and read as a signed integer, is the bit. -/
theorem bit_signed_eq_unsigned (b : BitVec 1) : (((b.setWidth 32).toInt : ℝ) : EReal) = ((b.toNat : ℝ) : EReal) := by
  have h : ∀ b : BitVec 1, (b.setWidth 32).toInt = (b.toNat : ℤ) := by decide
  rw [h b]
  simp

end Cert.CosSim

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.PayIdeal.lean ====
/-
  The body's payload terms read at an index, over the extended reals.

  Each accumulator's payload adds, to what the accumulator held, the sum over the block's 32 channels of
  the products of two input blocks. The reset payload is zero. The mask payload is one where the mask
  word is not zero and zero elsewhere. The two output payloads are, in every lane of row `b`, the sums
  over the 64 × 64 positions of the masked similarity and of the mask.
-/
import proofs.«139783_j69913477644540_1_alg».proof.Proof.Gen.KernelIdeal.Skeleton
import proofs.«139783_j69913477644540_1_alg».proof.Proof.CosSpec
import proofs.«139783_j69913477644540_1_alg».proof.Proof.LibColumn
import Idealize.ShloMosaic.Lib.Pipeline.Value
import Idealize.ShloMosaic.Lib.ValueIdx
import Idealize.ShloMosaic.PureOps.Ideal.Laws

noncomputable section

namespace Cert.KernelIdeal.CosValue

open Cert.KernelIdeal Cert.KernelIdeal.Gen Cert.CosSim
open Idealize.ShloMosaic Idealize.ShloMosaic.ValueIdx Idealize.ShloMosaic.ValueLayout

/-! ## Lane sums at an index -/

/-- A lane sum over the channel axis of a block, at a position: the sum over the block's 32 channels. -/
theorem chanSum_apply (x : FVec Ideal S8x32x64x64 .f32) (hr : S8x32x64x64.Reduces [1] S8x64x64)
    (b : Fin 8) (h w : Fin 64) :
    multiReduction .add [1] S8x64x64 x 0x00000000#32 hr (.inl rfl) rfl (ix3 b h w)
      = ∑ cc : Fin 32, x (ix4 b cc h w) := by
  refine (Ideal.multiReduction_add_single x 0x00000000#32 hr (.inl rfl) rfl (ix3 b h w)).trans ?_
  refine Finset.sum_congr rfl fun cc _ => congrArg x (funext fun a => Fin.ext ?_)
  match a with
  | ⟨0, _⟩ => rfl
  | ⟨1, _⟩ => rfl
  | ⟨2, _⟩ => rfl
  | ⟨3, _⟩ => rfl

/-- A lane sum over the last axis of an `[8, 64, 64]` block: the sum over the 64 columns. -/
theorem colSum_apply (x : FVec Ideal S8x64x64 .f32) (hr : S8x64x64.Reduces [2] S8x64) (b : Fin 8) (h : Fin 64) :
    multiReduction .add [2] S8x64 x 0x00000000#32 hr (.inl rfl) rfl (ix2 b h) = ∑ w : Fin 64, x (ix3 b h w) := by
  refine (Ideal.multiReduction_add_single x 0x00000000#32 hr (.inl rfl) rfl (ix2 b h)).trans ?_
  refine Finset.sum_congr rfl fun w _ => congrArg x (funext fun a => Fin.ext ?_)
  match a with
  | ⟨0, _⟩ => rfl
  | ⟨1, _⟩ => rfl
  | ⟨2, _⟩ => rfl

/-- A lane sum over the last axis of an `[8, 64]` block: the sum over the 64 rows' partial sums. -/
theorem rowSum_apply (x : FVec Ideal S8x64 .f32) (hr : S8x64.Reduces [1] S8) (b : Fin 8) :
    multiReduction .add [1] S8 x 0x00000000#32 hr (.inl rfl) rfl (ix1 b) = ∑ h : Fin 64, x (ix2 b h) := by
  refine (Ideal.multiReduction_add_single x 0x00000000#32 hr (.inl rfl) rfl (ix1 b)).trans ?_
  refine Finset.sum_congr rfl fun h _ => congrArg x (funext fun a => Fin.ext ?_)
  match a with
  | ⟨0, _⟩ => rfl
  | ⟨1, _⟩ => rfl

/-! ## The accumulators' payloads -/

/-- The sum over a block's channels of the products of two blocks, at a position. -/
def blockDot (x y : Vec Ideal S8x32x64x64 .f32) (b : Fin 8) (h w : Fin 64) : EReal :=
  ∑ cc : Fin 32, x (ix4 b cc h w) * y (ix4 b cc h w)

theorem pay8_apply (x y : Vec Ideal S8x32x64x64 .f32) (a : Vec Ideal S8x64x64 .f32) (b : Fin 8) (h w : Fin 64) :
    k0_pay8 (F := Ideal) x y a (ix3 b h w) = a (ix3 b h w) + blockDot x y b h w := by
  unfold k0_pay8
  dsimp only
  refine (congrFun (shapeCast_self _ _) _).trans ?_
  exact congrArg (a (ix3 b h w) + ·) (chanSum_apply (mulf x y) _ b h w)

theorem pay9_apply (x : Vec Ideal S8x32x64x64 .f32) (a : Vec Ideal S8x64x64 .f32) (b : Fin 8) (h w : Fin 64) :
    k0_pay9 (F := Ideal) x a (ix3 b h w) = a (ix3 b h w) + blockDot x x b h w := by
  unfold k0_pay9
  dsimp only
  refine (congrFun (shapeCast_self _ _) _).trans ?_
  exact congrArg (a (ix3 b h w) + ·) (chanSum_apply (mulf x x) _ b h w)

theorem pay10_apply (y : Vec Ideal S8x32x64x64 .f32) (a : Vec Ideal S8x64x64 .f32) (b : Fin 8) (h w : Fin 64) :
    k0_pay1 (F := Ideal) (k0_pay10 (F := Ideal) y a) (ix3 b h w) = a (ix3 b h w) + blockDot y y b h w := by
  unfold k0_pay1 k0_pay10
  dsimp only
  refine (congrFun (shapeCast_self _ _) _).trans ?_
  exact congrArg (a (ix3 b h w) + ·) (chanSum_apply (mulf y y) _ b h w)

/-- The reset payloads are zero. -/
theorem pay5_apply (j : S8x64x64.Idx) : k0_pay5 (F := Ideal) j = 0 := by
  unfold k0_pay5
  refine (congrFun (shapeCast_self _ _) _).trans ?_
  exact Ideal.ofBits_zero_f32
theorem pay6_apply (j : S8x64x64.Idx) : k0_pay6 (F := Ideal) j = 0 := by
  unfold k0_pay6
  refine (congrFun (shapeCast_self _ _) _).trans ?_
  exact Ideal.ofBits_zero_f32
theorem pay7_apply (j : S8x64x64.Idx) : k0_pay7 (F := Ideal) j = 0 := by
  unfold k0_pay7
  refine (congrFun (shapeCast_self _ _) _).trans ?_
  exact Ideal.ofBits_zero_f32

/-! ## The mask and the two output payloads -/

/-- The mask word as a number: one where it is not zero. -/
def bitNum (x : BitVec 32) : EReal := (((IntOp.cmpi .ne x 0#32).toNat : ℝ) : EReal)

theorem pay2_apply (kk : Vec Ideal S8x64x64 .i32) (j : S8x64x64.Idx) : k0_pay2 (F := Ideal) kk j = bitNum (kk j) := by
  unfold k0_pay2
  exact bit_signed_eq_unsigned _

/-- The similarity from three accumulators at a position. -/
def simOf (a1 a2 a0 : Vec Ideal S8x64x64 .f32) (b : Fin 8) (h w : Fin 64) : EReal :=
  Ideal.div (a0 (ix3 b h w)) (max (Ideal.sqrt (a1 (ix3 b h w))) eps * max (Ideal.sqrt (a2 (ix3 b h w))) eps)

theorem pay3_apply (a1 a2 a0 : Vec Ideal S8x64x64 .f32) (kk : Vec Ideal S8x64x64 .i32) (b : Fin 8) (l : Fin 128) :
    k0_pay3 (F := Ideal) a1 a2 a0 kk (ix2 b l)
      = ∑ h : Fin 64, ∑ w : Fin 64, simOf a1 a2 a0 b h w * bitNum (kk (ix3 b h w)) := by
  unfold k0_pay3
  dsimp only
  refine (broadcastTo_a1_ab_apply (by decide) _ _ b l).trans ?_
  refine (congrFun (shapeCast_self _ _) _).trans ?_
  refine (shapeCast_a_a1_apply _ _ b 0).trans ?_
  refine (rowSum_apply _ _ b).trans ?_
  refine Finset.sum_congr rfl fun h _ => ?_
  refine (colSum_apply _ _ b h).trans ?_
  refine Finset.sum_congr rfl fun w _ => ?_
  exact congrArg (simOf a1 a2 a0 b h w * ·) (pay2_apply kk (ix3 b h w))

theorem pay4_apply (kk : Vec Ideal S8x64x64 .i32) (b : Fin 8) (l : Fin 128) :
    k0_pay4 (F := Ideal) kk (ix2 b l) = ∑ h : Fin 64, ∑ w : Fin 64, bitNum (kk (ix3 b h w)) := by
  unfold k0_pay4
  dsimp only
  refine (broadcastTo_a1_ab_apply (by decide) _ _ b l).trans ?_
  refine (congrFun (shapeCast_self _ _) _).trans ?_
  refine (shapeCast_a_a1_apply _ _ b 0).trans ?_
  refine (rowSum_apply _ _ b).trans ?_
  refine Finset.sum_congr rfl fun h _ => ?_
  refine (colSum_apply _ _ b h).trans ?_
  exact Finset.sum_congr rfl fun w _ => pay2_apply kk (ix3 b h w)

end Cert.KernelIdeal.CosValue

end
-- ==== Proof.Accum.lean ====
/-
  What the three accumulators hold after every grid point.

  The grid is 4 batch blocks by 8 channel blocks, channel blocks innermost: point `n` works on batch block
  `n / 8` and channel block `n % 8`. An accumulator is reset at a point with `n % 8 = 0` and takes, at every
  point, the sum over that point's 32 channels of the products of two input blocks. So after point `n` it
  holds the sum of the contributions of the points `8 * (n / 8) .. n`: a closed form, proved by induction on
  the point from the three control cases' values.
-/
import proofs.«139783_j69913477644540_1_alg».proof.Proof.Pieces
import proofs.«139783_j69913477644540_1_alg».proof.Proof.PayIdeal

set_option maxRecDepth 16384

noncomputable section

open Idealize.ShloMosaic Idealize.ShloMosaic.TcCoe Idealize.SL.Sem
open Idealize.ShloMosaic.Pipeline (Dat)

namespace Cert.KernelIdeal.CosValue

open Cert.KernelIdeal Cert.KernelIdeal.Gen Cert.CosSim
open Idealize.ShloMosaic.ValueIdx

variable (m : (ℓ : Loc nD τ sig) → Buf (Elt Ideal) ℓ)

/-! ## The blocks and the arrays, at their literal types -/

abbrev ublk (c : Dev nD) (t : Fin cfg0.N) : Vec Ideal S8x32x64x64 .f32 := iblk m c 0 t
abbrev vblk (c : Dev nD) (t : Fin cfg0.N) : Vec Ideal S8x32x64x64 .f32 := iblk m c 1 t
abbrev kblk (c : Dev nD) (t : Fin cfg0.N) : Vec Ideal S8x64x64 .i32 := iblk m c 2 t
abbrev uarr (c : Dev nD) : Vec Ideal S32x256x64x64 .f32 := V m c main_arg0
abbrev varr (c : Dev nD) : Vec Ideal S32x256x64x64 .f32 := V m c main_arg1
abbrev karr (c : Dev nD) : Vec Ideal S32x64x64 .i32 := V m c main_arg2

theorem lt32 (t : Fin cfg0.N) : t.val < 32 := lt_of_lt_of_eq t.isLt (show cfg0.N = 32 from N_0)

/-- The printed index maps over the grid: the batch block is `t / 8`, the channel block `t % 8`. -/
theorem idx_in : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 4) = t.val / 8 ∧ win0_1.index t (1 : Fin 4) = t.val % 8
    ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0 :=
  (by decide +kernel : ∀ t : Fin grid0.N, _)

/-- An `[32, 256, 64, 64]` array read at natural batch and channel numbers (zero off the array). -/
def rd4 (A : Vec Ideal S32x256x64x64 .f32) (bn cn : ℕ) (h w : Fin 64) : EReal :=
  if hh : bn < 32 ∧ cn < 256 then A (ix4 ⟨bn, hh.1⟩ ⟨cn, hh.2⟩ h w) else 0

/-- The mask array read at a natural batch number (zero off the array). -/
def rd3 (K : Vec Ideal S32x64x64 .i32) (bn : ℕ) (h w : Fin 64) : BitVec 32 :=
  if hh : bn < 32 then K (ix3 ⟨bn, hh⟩ h w) else 0#32

/-- Entry `(b', cc, h, w)` of point `t`'s block of the first array is entry
    `(8 * (t / 8) + b', 32 * (t % 8) + cc, h, w)` of the array. -/
theorem ublk_apply (c : Dev nD) (t : Fin cfg0.N) (b' : Fin 8) (cc : Fin 32) (h w : Fin 64) :
    ublk m c t (ix4 b' cc h w) = rd4 (uarr m c) (8 * (t.val / 8) + b'.val) (32 * (t.val % 8) + cc.val) h w := by
  have ht := lt32 t
  obtain ⟨e0, e1, e2, e3, -⟩ := idx_in t
  have hb : 8 * (t.val / 8) + b'.val < 32 := by omega
  have hc : 32 * (t.val % 8) + cc.val < 256 := by omega
  unfold rd4
  rw [dif_pos ⟨hb, hc⟩]
  show V m c main_arg0 (((cfg0.win 0).blk t).view.emb (ix4 b' cc h w)) = _
  refine congrArg (V m c main_arg0) (funext fun a => Fin.ext ?_)
  match a with
  | ⟨0, _⟩ => show win0_0.index t (0 : Fin 4) * 8 + 1 * b'.val = 8 * (t.val / 8) + b'.val; rw [e0]; omega
  | ⟨1, _⟩ => show win0_0.index t (1 : Fin 4) * 32 + 1 * cc.val = 32 * (t.val % 8) + cc.val; rw [e1]; omega
  | ⟨2, _⟩ => show win0_0.index t (2 : Fin 4) * 64 + 1 * h.val = h.val; rw [e2]; omega
  | ⟨3, _⟩ => show win0_0.index t (3 : Fin 4) * 64 + 1 * w.val = w.val; rw [e3]; omega

theorem vblk_apply (c : Dev nD) (t : Fin cfg0.N) (b' : Fin 8) (cc : Fin 32) (h w : Fin 64) :
    vblk m c t (ix4 b' cc h w) = rd4 (varr m c) (8 * (t.val / 8) + b'.val) (32 * (t.val % 8) + cc.val) h w := by
  have ht := lt32 t
  obtain ⟨-, -, -, -, e0, e1, e2, e3, -⟩ := idx_in t
  have hb : 8 * (t.val / 8) + b'.val < 32 := by omega
  have hc : 32 * (t.val % 8) + cc.val < 256 := by omega
  unfold rd4
  rw [dif_pos ⟨hb, hc⟩]
  show V m c main_arg1 (((cfg0.win 1).blk t).view.emb (ix4 b' cc h w)) = _
  refine congrArg (V m c main_arg1) (funext fun a => Fin.ext ?_)
  match a with
  | ⟨0, _⟩ => show win0_1.index t (0 : Fin 4) * 8 + 1 * b'.val = 8 * (t.val / 8) + b'.val; rw [e0]; omega
  | ⟨1, _⟩ => show win0_1.index t (1 : Fin 4) * 32 + 1 * cc.val = 32 * (t.val % 8) + cc.val; rw [e1]; omega
  | ⟨2, _⟩ => show win0_1.index t (2 : Fin 4) * 64 + 1 * h.val = h.val; rw [e2]; omega
  | ⟨3, _⟩ => show win0_1.index t (3 : Fin 4) * 64 + 1 * w.val = w.val; rw [e3]; omega

theorem kblk_apply (c : Dev nD) (t : Fin cfg0.N) (b' : Fin 8) (h w : Fin 64) :
    kblk m c t (ix3 b' h w) = rd3 (karr m c) (8 * (t.val / 8) + b'.val) h w := by
  have ht := lt32 t
  obtain ⟨-, -, -, -, -, -, -, -, e0, e1, e2⟩ := idx_in t
  have hb : 8 * (t.val / 8) + b'.val < 32 := by omega
  unfold rd3
  rw [dif_pos hb]
  show V m c main_arg2 (((cfg0.win 2).blk t).view.emb (ix3 b' h w)) = _
  refine congrArg (V m c main_arg2) (funext fun a => Fin.ext ?_)
  match a with
  | ⟨0, _⟩ => show win0_2.index t (0 : Fin 3) * 8 + 1 * b'.val = 8 * (t.val / 8) + b'.val; rw [e0]; omega
  | ⟨1, _⟩ => show win0_2.index t (1 : Fin 3) * 64 + 1 * h.val = h.val; rw [e1]; omega
  | ⟨2, _⟩ => show win0_2.index t (2 : Fin 3) * 64 + 1 * w.val = w.val; rw [e2]; omega

/-! ## The closed form of an accumulator -/

/-- Point `p`'s contribution to an accumulator over the block families `X`, `Y` (zero off the grid). -/
def part (X Y : Fin cfg0.N → Vec Ideal S8x32x64x64 .f32) (p : ℕ) (b : Fin 8) (h w : Fin 64) : EReal :=
  if hp : p < cfg0.N then blockDot (X ⟨p, hp⟩) (Y ⟨p, hp⟩) b h w else 0

theorem part_of_lt (X Y : Fin cfg0.N → Vec Ideal S8x32x64x64 .f32) (p : ℕ) (hp : p < cfg0.N) (b : Fin 8) (h w : Fin 64) :
    part X Y p b h w = blockDot (X ⟨p, hp⟩) (Y ⟨p, hp⟩) b h w := dif_pos hp

/-- The accumulator after point `n`: the contributions of the points of `n`'s batch block up to `n`. -/
def accAt (X Y : Fin cfg0.N → Vec Ideal S8x32x64x64 .f32) (n : ℕ) (b : Fin 8) (h w : Fin 64) : EReal :=
  ∑ k ∈ Finset.range (n % 8 + 1), part X Y (8 * (n / 8) + k) b h w

/-- At a batch block's first point the accumulator is that point's contribution. -/
theorem accAt_reset (X Y : Fin cfg0.N → Vec Ideal S8x32x64x64 .f32) (n : ℕ) (hn : n < cfg0.N) (h0 : n % 8 = 0)
    (b : Fin 8) (h w : Fin 64) : accAt X Y n b h w = 0 + blockDot (X ⟨n, hn⟩) (Y ⟨n, hn⟩) b h w := by
  have e : 8 * (n / 8) + 0 = n := by omega
  unfold accAt
  rw [h0, Nat.zero_add, Finset.sum_range_one, e, zero_add]
  exact part_of_lt X Y n hn b h w

/-- At any later point it is the accumulator after the point before plus this point's contribution. -/
theorem accAt_step (X Y : Fin cfg0.N → Vec Ideal S8x32x64x64 .f32) (n : ℕ) (hn : n + 1 < cfg0.N) (h0 : ¬(n + 1) % 8 = 0)
    (b : Fin 8) (h w : Fin 64) :
    accAt X Y (n + 1) b h w = accAt X Y n b h w + blockDot (X ⟨n + 1, hn⟩) (Y ⟨n + 1, hn⟩) b h w := by
  have e1 : (n + 1) % 8 + 1 = (n % 8 + 1) + 1 := by omega
  have e2 : (n + 1) / 8 = n / 8 := by omega
  have e3 : 8 * (n / 8) + (n % 8 + 1) = n + 1 := by omega
  unfold accAt
  rw [e1, Finset.sum_range_succ, e2, e3]
  exact congrArg (_ + ·) (part_of_lt X Y (n + 1) hn b h w)

/-! ## What the accumulators hold after a point, case by case -/

/-- After a batch block's first point: zero plus that point's contribution. -/
theorem scratch_A (c : Dev nD) (t : Fin cfg0.N) (h0 : t.val % 8 = 0) (h1 : ¬t.val % 8 = 7) (b : Fin 8) (h w : Fin 64) :
    (outsAt0 m c t.val t.isLt).2.2.1 (ix3 b h w) = 0 + blockDot (ublk m c t) (vblk m c t) b h w
    ∧ (outsAt0 m c t.val t.isLt).2.2.2.1 (ix3 b h w) = 0 + blockDot (ublk m c t) (ublk m c t) b h w
    ∧ (outsAt0 m c t.val t.isLt).2.2.2.2 (ix3 b h w) = 0 + blockDot (vblk m c t) (vblk m c t) b h w := by
  rw [outsAt0_A m c t h0 h1]
  dsimp only
  refine ⟨?_, ?_, ?_⟩
  · refine (congrFun (scr0_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t) (iblk m c 2 t)) (ix3 b h w)).trans ?_
    refine (pay8_apply (ublk m c t) (vblk m c t) (k0_pay5 (F := Ideal)) b h w).trans ?_
    rw [pay5_apply]
  · refine (congrFun (scr1_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t) (iblk m c 2 t)) (ix3 b h w)).trans ?_
    refine (pay9_apply (ublk m c t) (k0_pay6 (F := Ideal)) b h w).trans ?_
    rw [pay6_apply]
  · refine (congrFun (scr2_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t) (iblk m c 2 t)) (ix3 b h w)).trans ?_
    refine (pay10_apply (vblk m c t) (k0_pay7 (F := Ideal)) b h w).trans ?_
    rw [pay7_apply]

/-- After a middle point: what the point before left plus this point's contribution. -/
theorem scratch_B (c : Dev nD) (n : ℕ) (hn : n + 1 < cfg0.N) (h0 : ¬(n + 1) % 8 = 0) (h1 : ¬(n + 1) % 8 = 7)
    (b : Fin 8) (h w : Fin 64) :
    (outsAt0 m c (n + 1) hn).2.2.1 (ix3 b h w)
      = (outsAt0 m c n (Nat.lt_of_succ_lt hn)).2.2.1 (ix3 b h w) + blockDot (ublk m c ⟨n + 1, hn⟩) (vblk m c ⟨n + 1, hn⟩) b h w
    ∧ (outsAt0 m c (n + 1) hn).2.2.2.1 (ix3 b h w)
      = (outsAt0 m c n (Nat.lt_of_succ_lt hn)).2.2.2.1 (ix3 b h w) + blockDot (ublk m c ⟨n + 1, hn⟩) (ublk m c ⟨n + 1, hn⟩) b h w
    ∧ (outsAt0 m c (n + 1) hn).2.2.2.2 (ix3 b h w)
      = (outsAt0 m c n (Nat.lt_of_succ_lt hn)).2.2.2.2 (ix3 b h w) + blockDot (vblk m c ⟨n + 1, hn⟩) (vblk m c ⟨n + 1, hn⟩) b h w := by
  rw [outsAt0_B m c ⟨n + 1, hn⟩ h0 h1]
  dsimp only
  refine ⟨?_, ?_, ?_⟩
  · refine (congrFun (scr0_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) (fun hh => h1 ((hcond0_1 ⟨n + 1, hn⟩).mp hh)) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2) (ix3 b h w)).trans ?_
    exact pay8_apply (ublk m c ⟨n + 1, hn⟩) (vblk m c ⟨n + 1, hn⟩) (outsAt0 m c n (Nat.lt_of_succ_lt hn)).2.2.1 b h w
  · refine (congrFun (scr1_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) (fun hh => h1 ((hcond0_1 ⟨n + 1, hn⟩).mp hh)) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2) (ix3 b h w)).trans ?_
    exact pay9_apply (ublk m c ⟨n + 1, hn⟩) (outsAt0 m c n (Nat.lt_of_succ_lt hn)).2.2.2.1 b h w
  · refine (congrFun (scr2_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) (fun hh => h1 ((hcond0_1 ⟨n + 1, hn⟩).mp hh)) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2) (ix3 b h w)).trans ?_
    exact pay10_apply (vblk m c ⟨n + 1, hn⟩) (outsAt0 m c n (Nat.lt_of_succ_lt hn)).2.2.2.2 b h w

/-- After a batch block's last point: the same as after a middle point. -/
theorem scratch_C (c : Dev nD) (n : ℕ) (hn : n + 1 < cfg0.N) (h0 : ¬(n + 1) % 8 = 0) (h1 : (n + 1) % 8 = 7)
    (b : Fin 8) (h w : Fin 64) :
    (outsAt0 m c (n + 1) hn).2.2.1 (ix3 b h w)
      = (outsAt0 m c n (Nat.lt_of_succ_lt hn)).2.2.1 (ix3 b h w) + blockDot (ublk m c ⟨n + 1, hn⟩) (vblk m c ⟨n + 1, hn⟩) b h w
    ∧ (outsAt0 m c (n + 1) hn).2.2.2.1 (ix3 b h w)
      = (outsAt0 m c n (Nat.lt_of_succ_lt hn)).2.2.2.1 (ix3 b h w) + blockDot (ublk m c ⟨n + 1, hn⟩) (ublk m c ⟨n + 1, hn⟩) b h w
    ∧ (outsAt0 m c (n + 1) hn).2.2.2.2 (ix3 b h w)
      = (outsAt0 m c n (Nat.lt_of_succ_lt hn)).2.2.2.2 (ix3 b h w) + blockDot (vblk m c ⟨n + 1, hn⟩) (vblk m c ⟨n + 1, hn⟩) b h w := by
  rw [outsAt0_C m c ⟨n + 1, hn⟩ h0 h1]
  dsimp only
  refine ⟨?_, ?_, ?_⟩
  · refine (congrFun (scr0_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2) (ix3 b h w)).trans ?_
    exact pay8_apply (ublk m c ⟨n + 1, hn⟩) (vblk m c ⟨n + 1, hn⟩) (outsAt0 m c n (Nat.lt_of_succ_lt hn)).2.2.1 b h w
  · refine (congrFun (scr1_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2) (ix3 b h w)).trans ?_
    exact pay9_apply (ublk m c ⟨n + 1, hn⟩) (outsAt0 m c n (Nat.lt_of_succ_lt hn)).2.2.2.1 b h w
  · refine (congrFun (scr2_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2) (ix3 b h w)).trans ?_
    exact pay10_apply (vblk m c ⟨n + 1, hn⟩) (outsAt0 m c n (Nat.lt_of_succ_lt hn)).2.2.2.2 b h w

/-! ## The invariant -/

/-- After every point the three accumulators hold their closed forms: by induction on the point. -/
theorem acc_inv (c : Dev nD) : ∀ (n : ℕ) (hn : n < cfg0.N) (b : Fin 8) (h w : Fin 64),
    (outsAt0 m c n hn).2.2.1 (ix3 b h w) = accAt (ublk m c) (vblk m c) n b h w
    ∧ (outsAt0 m c n hn).2.2.2.1 (ix3 b h w) = accAt (ublk m c) (ublk m c) n b h w
    ∧ (outsAt0 m c n hn).2.2.2.2 (ix3 b h w) = accAt (vblk m c) (vblk m c) n b h w
  | 0, hn, b, h, w => by
    obtain ⟨a0, a1, a2⟩ := scratch_A m c ⟨0, hn⟩ rfl (show ¬(0 : ℕ) % 8 = 7 by decide) b h w
    exact ⟨a0.trans (accAt_reset _ _ 0 hn rfl b h w).symm, a1.trans (accAt_reset _ _ 0 hn rfl b h w).symm,
      a2.trans (accAt_reset _ _ 0 hn rfl b h w).symm⟩
  | n + 1, hn, b, h, w => by
    obtain ⟨i0, i1, i2⟩ := acc_inv c n (Nat.lt_of_succ_lt hn) b h w
    by_cases h0 : (n + 1) % 8 = 0
    · have h1 : ¬(n + 1) % 8 = 7 := by omega
      obtain ⟨a0, a1, a2⟩ := scratch_A m c ⟨n + 1, hn⟩ h0 h1 b h w
      exact ⟨a0.trans (accAt_reset _ _ (n + 1) hn h0 b h w).symm, a1.trans (accAt_reset _ _ (n + 1) hn h0 b h w).symm,
        a2.trans (accAt_reset _ _ (n + 1) hn h0 b h w).symm⟩
    · by_cases h1 : (n + 1) % 8 = 7
      · obtain ⟨a0, a1, a2⟩ := scratch_C m c n hn h0 h1 b h w
        exact ⟨(a0.trans (congrArg (· + _) i0)).trans (accAt_step _ _ n hn h0 b h w).symm,
          (a1.trans (congrArg (· + _) i1)).trans (accAt_step _ _ n hn h0 b h w).symm,
          (a2.trans (congrArg (· + _) i2)).trans (accAt_step _ _ n hn h0 b h w).symm⟩
      · obtain ⟨a0, a1, a2⟩ := scratch_B m c n hn h0 h1 b h w
        exact ⟨(a0.trans (congrArg (· + _) i0)).trans (accAt_step _ _ n hn h0 b h w).symm,
          (a1.trans (congrArg (· + _) i1)).trans (accAt_step _ _ n hn h0 b h w).symm,
          (a2.trans (congrArg (· + _) i2)).trans (accAt_step _ _ n hn h0 b h w).symm⟩

end Cert.KernelIdeal.CosValue

end
-- ==== Proof.Outputs.lean ====
/-
  The two output arrays after the run, as functions of the argument arrays.

  At a batch block's last point the three accumulators hold the full channel dot products of the
  block's 8 batches (256 channels are the 8 channel blocks of 32), so the first output block holds, in
  every lane of row `b'`, batch `8 * (t / 8) + b'`'s masked sum of similarities, and the second its count
  of unmasked positions. Those are the only points that write the output blocks back, block `t / 8` of
  each array; the four of them cover the 32 rows.
-/
import proofs.«139783_j69913477644540_1_alg».proof.Proof.Accum
import proofs.«139783_j69913477644540_1_alg».proof.Proof.Gen.KernelIdeal.Points

set_option maxRecDepth 16384

noncomputable section

open Idealize.ShloMosaic Idealize.ShloMosaic.TcCoe Idealize.SL.Sem
open Idealize.ShloMosaic.Pipeline (Dat)

namespace Cert.KernelIdeal.CosValue

open Cert.KernelIdeal Cert.KernelIdeal.Gen Cert.CosSim
open Idealize.ShloMosaic.ValueIdx

variable (m : (ℓ : Loc nD τ sig) → Buf (Elt Ideal) ℓ)

/-! ## The full channel dot products -/

theorem rd4_of_lt (A : Vec Ideal S32x256x64x64 .f32) (bn cn : ℕ) (hb : bn < 32) (hc : cn < 256) (h w : Fin 64) :
    rd4 A bn cn h w = A (ix4 ⟨bn, hb⟩ ⟨cn, hc⟩ h w) := dif_pos ⟨hb, hc⟩

theorem rd3_of_lt (K : Vec Ideal S32x64x64 .i32) (bn : ℕ) (hb : bn < 32) (h w : Fin 64) :
    rd3 K bn h w = K (ix3 ⟨bn, hb⟩ h w) := dif_pos hb

/-- The channel dot product through natural batch and channel numbers. -/
theorem chanDot_rd (A B : Vec Ideal S32x256x64x64 .f32) (b : Fin 32) (h w : Fin 64) :
    chanDot A B b h w = ∑ cn : Fin 256, rd4 A b.val cn.val h w * rd4 B b.val cn.val h w := by
  unfold chanDot
  refine Finset.sum_congr rfl fun cn _ => ?_
  rw [rd4_of_lt A b.val cn.val b.isLt cn.isLt, rd4_of_lt B b.val cn.val b.isLt cn.isLt]

/-- At a batch block's last point an accumulator over block families that read the arrays `A`, `B` holds the
    full channel dot product of `A` and `B` at the block's batches. -/
theorem acc_full (X Y : Fin cfg0.N → Vec Ideal S8x32x64x64 .f32) (A B : Vec Ideal S32x256x64x64 .f32)
    (hX : ∀ (t : Fin cfg0.N) (b' : Fin 8) (cc : Fin 32) (h w : Fin 64),
      X t (ix4 b' cc h w) = rd4 A (8 * (t.val / 8) + b'.val) (32 * (t.val % 8) + cc.val) h w)
    (hY : ∀ (t : Fin cfg0.N) (b' : Fin 8) (cc : Fin 32) (h w : Fin 64),
      Y t (ix4 b' cc h w) = rd4 B (8 * (t.val / 8) + b'.val) (32 * (t.val % 8) + cc.val) h w)
    (n : ℕ) (hn : n < cfg0.N) (h7 : n % 8 = 7) (b' : Fin 8) (h w : Fin 64) (hb : 8 * (n / 8) + b'.val < 32) :
    accAt X Y n b' h w = chanDot A B ⟨8 * (n / 8) + b'.val, hb⟩ h w := by
  have hN : n < 32 := lt_of_lt_of_eq hn N_0
  rw [chanDot_rd, sum_chan_blocks]
  unfold accAt
  rw [h7]
  show ∑ k ∈ Finset.range 8, _ = _
  rw [Finset.sum_range]
  refine Finset.sum_congr rfl fun k _ => ?_
  have hk := k.isLt
  have hp : 8 * (n / 8) + k.val < cfg0.N := lt_of_lt_of_eq (by omega : 8 * (n / 8) + k.val < 32) N_0.symm
  rw [part_of_lt X Y _ hp]
  unfold blockDot
  refine Finset.sum_congr rfl fun cc _ => ?_
  rw [hX, hY]
  have e1 : (8 * (n / 8) + k.val) / 8 = n / 8 := by omega
  have e2 : (8 * (n / 8) + k.val) % 8 = k.val := by omega
  dsimp only
  rw [e1, e2]

/-! ## The two output blocks at a batch block's last point -/

/-- The output windows' index maps over the grid: block row `t / 8`, the one block column. -/
theorem idx_out : ∀ t : Fin cfg0.N,
    win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- The three accumulators after a batch block's last point are the three channel dot products. -/
theorem dots_last (c : Dev nD) (n : ℕ) (hn : n + 1 < cfg0.N) (h7 : (n + 1) % 8 = 7) (b' : Fin 8) (h w : Fin 64)
    (hb : 8 * ((n + 1) / 8) + b'.val < 32) :
    (outsAt0 m c (n + 1) hn).2.2.1 (ix3 b' h w) = chanDot (uarr m c) (varr m c) ⟨8 * ((n + 1) / 8) + b'.val, hb⟩ h w
    ∧ (outsAt0 m c (n + 1) hn).2.2.2.1 (ix3 b' h w) = chanDot (uarr m c) (uarr m c) ⟨8 * ((n + 1) / 8) + b'.val, hb⟩ h w
    ∧ (outsAt0 m c (n + 1) hn).2.2.2.2 (ix3 b' h w) = chanDot (varr m c) (varr m c) ⟨8 * ((n + 1) / 8) + b'.val, hb⟩ h w := by
  obtain ⟨i0, i1, i2⟩ := acc_inv m c (n + 1) hn b' h w
  exact ⟨i0.trans (acc_full (ublk m c) (vblk m c) (uarr m c) (varr m c) (ublk_apply m c) (vblk_apply m c) (n + 1) hn h7 b' h w hb),
    i1.trans (acc_full (ublk m c) (ublk m c) (uarr m c) (uarr m c) (ublk_apply m c) (ublk_apply m c) (n + 1) hn h7 b' h w hb),
    i2.trans (acc_full (vblk m c) (vblk m c) (varr m c) (varr m c) (vblk_apply m c) (vblk_apply m c) (n + 1) hn h7 b' h w hb)⟩

/-- The output blocks as payloads of this point's own accumulators and mask block. -/
theorem outs_last (c : Dev nD) (n : ℕ) (hn : n + 1 < cfg0.N) (h0 : ¬(n + 1) % 8 = 0) (h7 : (n + 1) % 8 = 7) :
    (outsAt0 m c (n + 1) hn).1
        = k0_pay3 (F := Ideal) (outsAt0 m c (n + 1) hn).2.2.2.1 (outsAt0 m c (n + 1) hn).2.2.2.2 (outsAt0 m c (n + 1) hn).2.2.1 (kblk m c ⟨n + 1, hn⟩)
    ∧ (outsAt0 m c (n + 1) hn).2.1 = k0_pay4 (F := Ideal) (kblk m c ⟨n + 1, hn⟩) := by
  rw [outsAt0_C m c ⟨n + 1, hn⟩ h0 h7]
  dsimp only
  simp only [Nat.add_sub_cancel]
  rw [out3_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h7) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2,
    out4_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h7) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2,
    scr0_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h7) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2,
    scr1_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h7) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2,
    scr2_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun hh => h0 ((hcond0_0 ⟨n + 1, hn⟩).mp hh)) ((hcond0_1 ⟨n + 1, hn⟩).mpr h7) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2.1 (outsAt0 m c n (Nat.lt_of_succ_lt hn)).2.2.2.2]
  exact ⟨rfl, rfl⟩

/-- Row `b'` of the first output block, in every lane: that batch's masked sum of similarities. -/
theorem out3_at (c : Dev nD) (n : ℕ) (hn : n + 1 < cfg0.N) (h0 : ¬(n + 1) % 8 = 0) (h7 : (n + 1) % 8 = 7)
    (b' : Fin 8) (l : Fin 128) (hb : 8 * ((n + 1) / 8) + b'.val < 32) :
    (outsAt0 m c (n + 1) hn).1 (ix2 b' l)
      = numRow (uarr m c) (varr m c) (karr m c) ⟨8 * ((n + 1) / 8) + b'.val, hb⟩ := by
  rw [(outs_last m c n hn h0 h7).1]
  refine (pay3_apply _ _ _ (kblk m c ⟨n + 1, hn⟩) b' l).trans ?_
  unfold numRow
  refine Finset.sum_congr rfl fun h _ => Finset.sum_congr rfl fun w _ => ?_
  obtain ⟨d0, d1, d2⟩ := dots_last m c n hn h7 b' h w hb
  unfold simOf cosAt maskAt bitNum
  rw [d0, d1, d2, kblk_apply]
  dsimp only
  rw [rd3_of_lt _ _ hb]

/-- Row `b'` of the second output block, in every lane: that batch's count of unmasked positions. -/
theorem out4_at (c : Dev nD) (n : ℕ) (hn : n + 1 < cfg0.N) (h0 : ¬(n + 1) % 8 = 0) (h7 : (n + 1) % 8 = 7)
    (b' : Fin 8) (l : Fin 128) (hb : 8 * ((n + 1) / 8) + b'.val < 32) :
    (outsAt0 m c (n + 1) hn).2.1 (ix2 b' l) = denRow (karr m c) ⟨8 * ((n + 1) / 8) + b'.val, hb⟩ := by
  rw [(outs_last m c n hn h0 h7).2]
  refine (pay4_apply (kblk m c ⟨n + 1, hn⟩) b' l).trans ?_
  unfold denRow
  refine Finset.sum_congr rfl fun h _ => Finset.sum_congr rfl fun w _ => ?_
  unfold maskAt bitNum
  rw [kblk_apply]
  dsimp only
  rw [rd3_of_lt _ _ hb]

/-! ## From the flushed blocks to the whole arrays -/

/-- The first output array after the run: row `b` holds, in every lane, batch `b`'s masked sum. -/
abbrev numArr (c : Dev nD) : Vec Ideal S32x128 .f32 := fun j => numRow (uarr m c) (varr m c) (karr m c) (j 0)
/-- The second output array after the run: row `b` holds, in every lane, batch `b`'s count. -/
abbrev denArr (c : Dev nD) : Vec Ideal S32x128 .f32 := fun j => denRow (karr m c) (j 0)

/-- A point that writes an output block back is not the first point. -/
theorem succ_of_mod7 (t : Fin cfg0.N) (h7 : t.val % 8 = 7) : ∃ (n : ℕ) (hn : n + 1 < cfg0.N), t = ⟨n + 1, hn⟩ := by
  obtain ⟨tv, htv⟩ := t
  cases tv with
  | zero => exact absurd h7 (show ¬(0 : ℕ) % 8 = 7 by decide)
  | succ n => exact ⟨n, htv, rfl⟩

/-- What a writing point writes back of the first output is its block of `numArr`. -/
theorem flushed3_eq (c : Dev nD) (t : Fin cfg0.N) (hf : (cfg0.win 3).flush t = true) :
    (dats m 0 c).flushed 3 t = ((cfg0.win 3).blk t).view.read (Elt Ideal) (numArr m c) := by
  have h7 : t.val % 8 = 7 := (flush0_3 t).mp hf
  obtain ⟨n, hn, rfl⟩ := succ_of_mod7 t h7
  have hN : n + 1 < 32 := lt_of_lt_of_eq hn N_0
  have h0 : ¬(n + 1) % 8 = 0 := by dsimp only at h7; omega
  obtain ⟨e0, e1, -⟩ := idx_out ⟨n + 1, hn⟩
  show (cfg0.win 3).cut (grid0.coords ⟨n + 1, hn⟩) ((dats m 0 c).after 3 ⟨n + 1, hn⟩) = _
  rw [after0_3]
  funext y
  have hy : (y : S8x128.Idx) = ix2 (y 0) (y 1) := eq_ix2 (n0 := 8) (n1 := 128) y
  have hy0 : (y 0).val < 8 := (y 0).isLt
  have hb : 8 * ((n + 1) / 8) + (y 0).val < 32 := by omega
  show (outsAt0 m c (n + 1) hn).1 y = numArr m c (((cfg0.win 3).blk ⟨n + 1, hn⟩).view.emb y)
  refine (congrArg (outsAt0 m c (n + 1) hn).1 hy).trans ?_
  refine (out3_at m c n hn h0 h7 (y 0) (y 1) hb).trans ?_
  show numRow _ _ _ _ = numRow _ _ _ ((((cfg0.win 3).blk ⟨n + 1, hn⟩).view.emb y) 0)
  refine congrArg (numRow (uarr m c) (varr m c) (karr m c)) (Fin.ext ?_)
  show 8 * ((n + 1) / 8) + (y 0).val = win0_3.index ⟨n + 1, hn⟩ (0 : Fin 2) * 8 + 1 * (y 0).val
  rw [e0]
  dsimp only
  omega

/-- What a writing point writes back of the second output is its block of `denArr`. -/
theorem flushed4_eq (c : Dev nD) (t : Fin cfg0.N) (hf : (cfg0.win 4).flush t = true) :
    (dats m 0 c).flushed 4 t = ((cfg0.win 4).blk t).view.read (Elt Ideal) (denArr m c) := by
  have h7 : t.val % 8 = 7 := (flush0_4 t).mp hf
  obtain ⟨n, hn, rfl⟩ := succ_of_mod7 t h7
  have hN : n + 1 < 32 := lt_of_lt_of_eq hn N_0
  have h0 : ¬(n + 1) % 8 = 0 := by dsimp only at h7; omega
  obtain ⟨-, -, e0, e1⟩ := idx_out ⟨n + 1, hn⟩
  show (cfg0.win 4).cut (grid0.coords ⟨n + 1, hn⟩) ((dats m 0 c).after 4 ⟨n + 1, hn⟩) = _
  rw [after0_4]
  funext y
  have hy : (y : S8x128.Idx) = ix2 (y 0) (y 1) := eq_ix2 (n0 := 8) (n1 := 128) y
  have hy0 : (y 0).val < 8 := (y 0).isLt
  have hb : 8 * ((n + 1) / 8) + (y 0).val < 32 := by omega
  show (outsAt0 m c (n + 1) hn).2.1 y = denArr m c (((cfg0.win 4).blk ⟨n + 1, hn⟩).view.emb y)
  refine (congrArg (outsAt0 m c (n + 1) hn).2.1 hy).trans ?_
  refine (out4_at m c n hn h0 h7 (y 0) (y 1) hb).trans ?_
  show denRow _ _ = denRow _ ((((cfg0.win 4).blk ⟨n + 1, hn⟩).view.emb y) 0)
  refine congrArg (denRow (karr m c)) (Fin.ext ?_)
  show 8 * ((n + 1) / 8) + (y 0).val = win0_4.index ⟨n + 1, hn⟩ (0 : Fin 2) * 8 + 1 * (y 0).val
  rw [e0]
  dsimp only
  omega

/-- An index of the first output array is in point `t`'s block iff each coordinate is in the block's range. -/
theorem mem_blk3 (t : Fin cfg0.N) (i : S32x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_0).slice (win0_3.rect t)).set ↔ _
  rw [View.set_slice_whole, Rect.mem_set_unit]
  exact Iff.rfl

theorem mem_blk4 (t : Fin cfg0.N) (i : S32x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_1).slice (win0_4.rect t)).set ↔ _
  rw [View.set_slice_whole, Rect.mem_set_unit]
  exact Iff.rfl

/-- Row `r` of an output array is in the block the last point of batch block `r / 8` writes back. -/
theorem cover3 (i : S32x128.Idx) : ∃ t : Fin cfg0.N, (cfg0.win 3).flush t = true ∧ i ∈ ((cfg0.win 3).blk t).view.set := by
  have hi0 : (i 0).val < 32 := (i 0).isLt
  have hi1 : (i 1).val < 128 := (i 1).isLt
  have hp : 8 * ((i 0).val / 8) + 7 < cfg0.N := lt_of_lt_of_eq (by omega : 8 * ((i 0).val / 8) + 7 < 32) N_0.symm
  obtain ⟨e0, e1, -⟩ := idx_out ⟨8 * ((i 0).val / 8) + 7, hp⟩
  refine ⟨⟨8 * ((i 0).val / 8) + 7, hp⟩, (flush0_3 _).mpr (by dsimp only; omega), ?_⟩
  rw [mem_blk3]
  intro a
  match a with
  | ⟨0, _⟩ =>
    show win0_3.index ⟨8 * ((i 0).val / 8) + 7, hp⟩ (0 : Fin 2) * 8 ≤ (i 0).val ∧ (i 0).val < win0_3.index ⟨8 * ((i 0).val / 8) + 7, hp⟩ (0 : Fin 2) * 8 + 8
    rw [e0]; dsimp only; omega
  | ⟨1, _⟩ =>
    show win0_3.index ⟨8 * ((i 0).val / 8) + 7, hp⟩ (1 : Fin 2) * 128 ≤ (i 1).val ∧ (i 1).val < win0_3.index ⟨8 * ((i 0).val / 8) + 7, hp⟩ (1 : Fin 2) * 128 + 128
    rw [e1]; omega

theorem cover4 (i : S32x128.Idx) : ∃ t : Fin cfg0.N, (cfg0.win 4).flush t = true ∧ i ∈ ((cfg0.win 4).blk t).view.set := by
  have hi0 : (i 0).val < 32 := (i 0).isLt
  have hi1 : (i 1).val < 128 := (i 1).isLt
  have hp : 8 * ((i 0).val / 8) + 7 < cfg0.N := lt_of_lt_of_eq (by omega : 8 * ((i 0).val / 8) + 7 < 32) N_0.symm
  obtain ⟨-, -, e0, e1⟩ := idx_out ⟨8 * ((i 0).val / 8) + 7, hp⟩
  refine ⟨⟨8 * ((i 0).val / 8) + 7, hp⟩, (flush0_4 _).mpr (by dsimp only; omega), ?_⟩
  rw [mem_blk4]
  intro a
  match a with
  | ⟨0, _⟩ =>
    show win0_4.index ⟨8 * ((i 0).val / 8) + 7, hp⟩ (0 : Fin 2) * 8 ≤ (i 0).val ∧ (i 0).val < win0_4.index ⟨8 * ((i 0).val / 8) + 7, hp⟩ (0 : Fin 2) * 8 + 8
    rw [e0]; dsimp only; omega
  | ⟨1, _⟩ =>
    show win0_4.index ⟨8 * ((i 0).val / 8) + 7, hp⟩ (1 : Fin 2) * 128 ≤ (i 1).val ∧ (i 1).val < win0_4.index ⟨8 * ((i 0).val / 8) + 7, hp⟩ (1 : Fin 2) * 128 + 128
    rw [e1]; omega

/-- The two output arrays after the run. -/
theorem final3 (c : Dev nD) : (dats m 0 c).arrAt 3 cfg0.N = numArr m c :=
  (dats m 0 c).arrAt_eq_of_cover 3 (numArr m c) (flushed3_eq m c) cover3

theorem final4 (c : Dev nD) : (dats m 0 c).arrAt 4 cfg0.N = denArr m c :=
  (dats m 0 c).arrAt_eq_of_cover 4 (denArr m c) (flushed4_eq m c) cover4

end Cert.KernelIdeal.CosValue

end
-- ==== Proof.IdxSums.lean ====
/-
  Index sums over literal shapes used by the cosine-similarity certificate: a sum over a rank-1 index type
  as the sum over its coordinate, and a sum over a rank-3 index type as the iterated sum over its three.
-/
import Idealize.ShloMosaic.Lib.ValueIdx
import Idealize.ShloMosaic.PureOps.Ideal.Laws

noncomputable section

namespace Cert.CosSim

open Idealize.ShloMosaic Idealize.ShloMosaic.ValueIdx

/-- A rank-1 index is its coordinate. -/
def idxEquiv1 {n : Nat} : (⟨1, ![n]⟩ : Shape).Idx ≃ Fin n where
  toFun j := j 0
  invFun a := ix1 a
  left_inv j := (eq_ix1 j).symm
  right_inv a := rfl

/-- A sum over a rank-1 index type is the sum over its coordinate. -/
theorem sum_idx1 {M : Type*} [AddCommMonoid M] {n : Nat} (f : (⟨1, ![n]⟩ : Shape).Idx → M) :
    ∑ j, f j = ∑ a : Fin n, f (ix1 a) :=
  (idxEquiv1.symm.sum_comp f).symm

/-- A rank-3 index is its three coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv p := rfl

/-- A sum over a rank-3 index type is the iterated sum over its coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← idxEquiv3.symm.sum_comp, Fintype.sum_prod_type]
  refine Finset.sum_congr rfl fun a _ => ?_
  rw [Fintype.sum_prod_type]
  rfl

end Cert.CosSim

end
-- ==== Proof.Tail.lean ====
/-
  The host operations after the region, and the kernel program's run with its result named.

  After the region the program slices column 0 of each output array, reshapes it to a vector of 32, sums
  it from a zero initial value, and divides the two sums. With the output arrays at their row sums this is
  the specification's masked mean.
-/
import proofs.«139783_j69913477644540_1_alg».proof.Proof.Outputs
import proofs.«139783_j69913477644540_1_alg».proof.Proof.IdxSums
import proofs.«139783_j69913477644540_1_alg».proof.Proof.LibColumn
import Idealize.ShloMosaic.Lib.StableHlo.Run
import Idealize.ShloMosaic.Lib.Pipeline.FrameSuffix

set_option maxRecDepth 16384

noncomputable section

open Idealize.ShloMosaic Idealize.ShloMosaic.TcCoe Idealize.SL.Sem Idealize.ShloMosaic.StableHlo
open Idealize.ShloMosaic.Pipeline (Dat)

namespace Cert.KernelIdeal.CosValue

open Cert.KernelIdeal Cert.KernelIdeal.Gen Cert.CosSim
open Idealize.ShloMosaic.ValueIdx Idealize.ShloMosaic.ValueLayout

/-- Column 0 of a `[32, 128]` array summed over its 32 rows, as the host computes it. -/
def colTotal (x : FVec Ideal S32x128 .f32) : FVec Ideal S_ .f32 :=
  Host.reduceAdd (F := Ideal)
    (fun i => shapeCast S32 (extractStridedSlice S32x1 ![0, 0] x slices_S32x128_S32x1_0_0) shapeCasts_S32x1_S32 i)
    (constant (F := Ideal) S_ .f32 0x00000000#32) reducesTo_S32_S_d0 h_S_

theorem colTotal_apply (x : FVec Ideal S32x128 .f32) (j : S_.Idx) :
    colTotal x j = 0 + ∑ b : Fin 32, x (ix2 b (0 : Fin 128)) := by
  unfold colTotal
  simp only [Host.reduceAdd, Ideal.hostReduceAdd_def]
  rw [Ideal.hostReduceAdd_total reducesTo_S32_S_d0 (fun b => b.elim0), sum_idx1]
  refine congrArg₂ (· + ·) Ideal.ofBits_zero_f32 (Finset.sum_congr rfl fun b _ => ?_)
  refine (shapeCast_a1_a_apply _ _ b).trans ?_
  refine extractStridedSlice_apply _ x _ _ (ix2 b (0 : Fin 128)) (fun a => ?_)
  match a with
  | ⟨0, _⟩ => show b.val = 0 + b.val; omega
  | ⟨1, _⟩ => show (0 : ℕ) = 0 + 0; rfl

/-- The quotient of two column totals, for any two arrays. -/
theorem divTotals (x y : FVec Ideal S32x128 .f32) :
    Host.divf (F := Ideal) (colTotal x) (colTotal y)
      = fun _ => Ideal.div (0 + ∑ b : Fin 32, x (ix2 b (0 : Fin 128))) (0 + ∑ b : Fin 32, y (ix2 b (0 : Fin 128))) := by
  funext j
  show Ideal.div (colTotal x j) (colTotal y j) = _
  rw [colTotal_apply x j, colTotal_apply y j]

variable (m : (ℓ : Loc nD τ sig) → Buf (Elt Ideal) ℓ)

/-- The result buffer after the host operations that follow the region. -/
theorem tail_val (c : Dev nD) :
    Pipeline.afterTail₀ cfgs (dats m) 0 (V0 m) [hostOps1] c main_v7
      = fun _ => result (uarr m c) (varr m c) (karr m c) := by
  have e3 : Pipeline.withArrays (cfgs 0).spec c (V0 m c) (fun w => (dats m 0 c).arrAt w (cfgs 0).N) (Proc.devRef .tc main_v0_0)
      = numArr m c :=
    (Pipeline.withArrays_arr spec0 launch0.win.arr_inj c (V0 m c) (fun w => (dats m 0 c).arrAt w (cfgs 0).N) 3).trans (final3 m c)
  have e4 : Pipeline.withArrays (cfgs 0).spec c (V0 m c) (fun w => (dats m 0 c).arrAt w (cfgs 0).N) (Proc.devRef .tc main_v0_1)
      = denArr m c :=
    (Pipeline.withArrays_arr spec0 launch0.win.arr_inj c (V0 m c) (fun w => (dats m 0 c).arrAt w (cfgs 0).N) 4).trans (final4 m c)
  unfold Pipeline.afterTail₀
  show StableHlo.after hostOps1 _ (Proc.devRef .tc main_v7) = _
  after_results
  show Host.divf (F := Ideal)
      (colTotal (Pipeline.withArrays (cfgs 0).spec c (V0 m c) (fun w => (dats m 0 c).arrAt w (cfgs 0).N) (Proc.devRef .tc main_v0_0)))
      (colTotal (Pipeline.withArrays (cfgs 0).spec c (V0 m c) (fun w => (dats m 0 c).arrAt w (cfgs 0).N) (Proc.devRef .tc main_v0_1))) = _
  rw [e3, e4, divTotals (numArr m c) (denArr m c)]
  unfold result
  rfl

/-- The run, read: the result at the masked mean of the argument arrays, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v7)
        = (fun _ => result (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v7 (Pipeline.mem_restRefs_of main_v7 rfl (fun w => by fin_cases w <;> decide))).trans (tail_val m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.CosValue

end
-- ==== Proof.RefValue.lean ====
/-
  The reference's result is the specification's masked mean.

  The reference multiplies the arrays, sums each product over the 256 channels from a zero initial
  value, takes the square roots of the two squared norms, clamps them below, divides, multiplies by the
  mask as a number, and divides the sum of the weighted similarities over all 32 × 64 × 64 positions by
  the sum of the mask, both sums from a zero initial value. Read at an index operation by operation this
  is `Cert.CosSim.result`: the zero initial values vanish, and a sum over the rank-3 index type is the
  iterated sum over its coordinates.
-/
import proofs.«139783_j69913477644540_1_alg».proof.Proof.Gen.ReferenceIdeal.Read
import proofs.«139783_j69913477644540_1_alg».proof.Proof.CosSpec
import proofs.«139783_j69913477644540_1_alg».proof.Proof.IdxSums

noncomputable section

namespace Cert.ReferenceIdeal.CosRef

open Cert.ReferenceIdeal Cert.ReferenceIdeal.Gen Cert.ReferenceIdeal.Read Cert.CosSim
open Idealize.ShloMosaic Idealize.ShloMosaic.ValueIdx

/-- The index of channel `k` over position `(b, h, w)`, for each of the three channel sums. -/
theorem idx_v1 (b : Fin 32) (h w : Fin 64) (k : Fin 256) : idx_main_v1 (ix3 b h w) k = ix4 b k h w :=
  funext fun a => Fin.ext (by match a with | ⟨0, _⟩ => rfl | ⟨1, _⟩ => rfl | ⟨2, _⟩ => rfl | ⟨3, _⟩ => rfl)
theorem idx_v3 (b : Fin 32) (h w : Fin 64) (k : Fin 256) : idx_main_v3 (ix3 b h w) k = ix4 b k h w :=
  funext fun a => Fin.ext (by match a with | ⟨0, _⟩ => rfl | ⟨1, _⟩ => rfl | ⟨2, _⟩ => rfl | ⟨3, _⟩ => rfl)
theorem idx_v6 (b : Fin 32) (h w : Fin 64) (k : Fin 256) : idx_main_v6 (ix3 b h w) k = ix4 b k h w :=
  funext fun a => Fin.ext (by match a with | ⟨0, _⟩ => rfl | ⟨1, _⟩ => rfl | ⟨2, _⟩ => rfl | ⟨3, _⟩ => rfl)

variable (x0 x1 : (⟨S32x256x64x64, .f32⟩ : BufTy).Contents (Elt Ideal)) (x2 : (⟨S32x64x64, .i32⟩ : BufTy).Contents (Elt Ideal))

/-- The three channel sums are the channel dot products. -/
theorem dot_uv (b : Fin 32) (h w : Fin 64) : val_main_v1 (F := Ideal) x0 x1 (ix3 b h w) = chanDot x0 x1 b h w := by
  rw [val_main_v1_apply]
  simp only [idx_v1, val_main_v0_apply, val_main_cst_apply]
  show Ideal.ofBits .f32 0x00000000#32 + _ = _
  rw [Ideal.ofBits_zero_f32, zero_add]
  rfl
theorem dot_uu (b : Fin 32) (h w : Fin 64) : val_main_v3 (F := Ideal) x0 (ix3 b h w) = chanDot x0 x0 b h w := by
  rw [val_main_v3_apply]
  simp only [idx_v3, val_main_v2_apply, val_main_cst_0_apply]
  show Ideal.ofBits .f32 0x00000000#32 + _ = _
  rw [Ideal.ofBits_zero_f32, zero_add]
  rfl
theorem dot_vv (b : Fin 32) (h w : Fin 64) : val_main_v6 (F := Ideal) x1 (ix3 b h w) = chanDot x1 x1 b h w := by
  rw [val_main_v6_apply]
  simp only [idx_v6, val_main_v5_apply, val_main_cst_1_apply]
  show Ideal.ofBits .f32 0x00000000#32 + _ = _
  rw [Ideal.ofBits_zero_f32, zero_add]
  rfl

/-- The mask as a number. -/
theorem mask_eq (b : Fin 32) (h w : Fin 64) : val_main_v16 (F := Ideal) x2 (ix3 b h w) = maskAt x2 b h w := by
  rw [val_main_v16_apply, val_main_v15_apply, val_main_v14_apply, val_main_c_apply]
  rfl

/-- The similarity at a position. -/
theorem cos_eq (b : Fin 32) (h w : Fin 64) : val_main_v13 (F := Ideal) x0 x1 (ix3 b h w) = cosAt x0 x1 b h w := by
  rw [val_main_v13_apply, val_main_v12_apply, val_main_v9_apply, val_main_v11_apply, val_main_v4_apply, val_main_v7_apply,
    val_main_v8_apply, val_main_v10_apply, val_main_cst_2_apply, val_main_cst_3_apply, dot_uv, dot_uu, dot_vv]
  rfl

/-- The reference's result is the masked mean. -/
theorem result_eq : val_main_v20 (F := Ideal) x0 x1 x2 = fun _ => result x0 x1 x2 := by
  funext i
  rw [val_main_v20_apply, val_main_v18_apply, val_main_v19_apply, sum_idx3, sum_idx3]
  simp only [val_main_v17_apply, cos_eq, mask_eq, val_main_cst_4_apply, val_main_cst_5_apply]
  show Ideal.div (Ideal.ofBits .f32 0x00000000#32 + _) (Ideal.ofBits .f32 0x00000000#32 + _) = _
  rw [Ideal.ofBits_zero_f32]
  rfl

end Cert.ReferenceIdeal.CosRef

end
-- ==== Proof.lean ====
/-
  The masked mean cosine similarity: the kernel against its reference, over the extended reals.

  Both programs compute, for `u v : [32, 256, 64, 64]` and an integer mask `k : [32, 64, 64]`, the cosine
  similarity of `u` and `v` along the channel axis at every batch and position (each norm clamped below by
  the same constant), weight it by the mask as a number, and divide the sum of the weighted similarities
  by the sum of the mask: `Cert.CosSim.result`.

  The reference does it in one pass: each channel sum over all 256 channels, the final sums over all
  32 × 64 × 64 positions at once. The kernel walks a grid of 4 batch blocks by 8 channel blocks: three
  accumulators collect the channel sums 32 channels at a time; at a batch block's last channel block the
  similarity is formed and summed over the 64 × 64 positions of each of the block's 8 batches; the host then
  sums the 32 per-batch values and divides. The two agree because addition of extended reals is commutative
  and associative with zero as its identity: 256 channels are 8 blocks of 32, and a sum over batch, row and
  column is the iterated sum. No finiteness is needed: every other operation is the same function applied to
  equal arguments on both sides (the square root, the maximum, the quotient, and the mask, whose one-bit
  compare result reads the same signed after a zero extension as unsigned).

  The frames of the two kernel programs are the generated ones; the reference's frame is its generated run
  with the result dropped; the idealization rewrote nothing, so `preserves` is trivial.
-/
import proofs.«139783_j69913477644540_1_alg».proof.Defs
import proofs.«139783_j69913477644540_1_alg».proof.Proof.Gen.Kernel
import proofs.«139783_j69913477644540_1_alg».proof.Proof.Gen.Kernel.Skeleton
import proofs.«139783_j69913477644540_1_alg».proof.Proof.Gen.Kernel.Launch
import proofs.«139783_j69913477644540_1_alg».proof.Proof.Gen.Kernel.Points
import proofs.«139783_j69913477644540_1_alg».proof.Proof.Gen.Kernel.Frame
import proofs.«139783_j69913477644540_1_alg».proof.Proof.Gen.KernelIdeal
import proofs.«139783_j69913477644540_1_alg».proof.Proof.Gen.KernelIdeal.Skeleton
import proofs.«139783_j69913477644540_1_alg».proof.Proof.Gen.KernelIdeal.Launch
import proofs.«139783_j69913477644540_1_alg».proof.Proof.Gen.KernelIdeal.Points
import proofs.«139783_j69913477644540_1_alg».proof.Proof.Gen.KernelIdeal.Frame
import proofs.«139783_j69913477644540_1_alg».proof.Proof.Gen.ReferenceIdeal
import proofs.«139783_j69913477644540_1_alg».proof.Proof.Gen.ReferenceIdeal.Run
import proofs.«139783_j69913477644540_1_alg».proof.Proof.Gen.ReferenceIdeal.Read
import proofs.«139783_j69913477644540_1_alg».proof.Proof.Gen.Pre_finite_inputs
import proofs.«139783_j69913477644540_1_alg».proof.Proof.Tail
import proofs.«139783_j69913477644540_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the masked mean of the arguments. -/
theorem algebraic : Cert.algebraic_KernelIdeal_ReferenceIdeal := by
  intro m ρ m' ρ' _ hagree
  refine ⟨fun c _ => Cert.CosSim.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.CosValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.CosRef.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
